-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128 .f32) (main_arg5 : FVec F S512x128 .f32) (main_arg6 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S32x512x64x64 .f32) (main_arg1 : FVec F S128x512 .f32) (main_arg2 : FVec F S128 .f32) (main_arg3 : FVec F S128 .f32) (main_arg4 : FVec F S128 .f32) (main_arg5 : FVec F S512x128 .f32) (main_arg6 : FVec F S512 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32x512x4096 : Shape := ⟨3, ![32, 512, 4096]⟩
abbrev S32x512 : Shape := ⟨2, ![32, 512]⟩
abbrev S8x128x4096 : Shape := ⟨3, ![8, 128, 4096]⟩
abbrev S8x128 : Shape := ⟨2, ![8, 128]⟩
abbrev S32x128 : Shape := ⟨2, ![32, 128]⟩
abbrev S1x128 : Shape := ⟨2, ![1, 128]⟩
abbrev S_ : Shape := ⟨0, ![]⟩
abbrev S1x512 : Shape := ⟨2, ![1, 512]⟩
abbrev S32x512x1 : Shape := ⟨3, ![32, 512, 1]⟩
abbrev S8x32x4096 : Shape := ⟨3, ![8, 32, 4096]⟩
abbrev S8x32x1 : Shape := ⟨3, ![8, 32, 1]⟩

abbrev nBuf : Space → Nat
  | .hbm => 75
  | .vmem => 10
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S32x512x4096, .f32⟩
  | .hbm, ⟨8, _⟩ => ⟨S32x512, .f32⟩
  | .hbm, ⟨9, _⟩ => ⟨S32x128, .f32⟩
  | .hbm, ⟨10, _⟩ => ⟨S1x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S32x128, .f32⟩
  | .hbm, ⟨46, _⟩ => ⟨S32x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S32x128, .f32⟩
  | .hbm, ⟨53, _⟩ => ⟨S32x128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S1x128, .f32⟩
  | .hbm, ⟨58, _⟩ => ⟨S32x128, .f32⟩
  | .hbm, ⟨59, _⟩ => ⟨S32x128, .f32⟩
  | .hbm, ⟨60, _⟩ => ⟨S32x512, .f32⟩
  | .hbm, ⟨61, _⟩ => ⟨S1x512, .f32⟩
  | .hbm, ⟨62, _⟩ => ⟨S32x512, .f32⟩
  | .hbm, ⟨63, _⟩ => ⟨S32x512, .f32⟩
  | .hbm, ⟨64, _⟩ => ⟨S32x512, .f32⟩
  | .hbm, ⟨65, _⟩ => ⟨S32x512, .f32⟩
  | .hbm, ⟨66, _⟩ => ⟨S_, .f32⟩
  | .hbm, ⟨67, _⟩ => ⟨S32x512, .f32⟩
  | .hbm, ⟨68, _⟩ => ⟨S32x512, .f32⟩
  | .hbm, ⟨69, _⟩ => ⟨S_, .f32⟩
  | .hbm, ⟨70, _⟩ => ⟨S32x512, .f32⟩
  | .hbm, ⟨71, _⟩ => ⟨S32x512, .f32⟩
  | .hbm, ⟨72, _⟩ => ⟨S32x512x1, .f32⟩
  | .hbm, ⟨73, _⟩ => ⟨S32x512x4096, .f32⟩
  | .hbm, ⟨74, _⟩ => ⟨S32x512x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x32x4096, .f32⟩
  | .local _ .vmem, ⟨5, _⟩ => ⟨S8x32x4096, .f32⟩
  | .local _ .vmem, ⟨6, _⟩ => ⟨S8x32x1, .f32⟩
  | .local _ .vmem, ⟨7, _⟩ => ⟨S8x32x1, .f32⟩
  | .local _ .vmem, ⟨8, _⟩ => ⟨S8x32x4096, .f32⟩
  | .local _ .vmem, ⟨9, _⟩ => ⟨S8x32x4096, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_cst_1 : Ref sig .tc := ⟨.hbm, 32, rfl⟩
abbrev main_call1_v8 : Ref sig .tc := ⟨.hbm, 33, rfl⟩
abbrev main_call1_cst_2 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_cst_3 : Ref sig .tc := ⟨.hbm, 38, rfl⟩
abbrev main_call1_v12 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_2 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x32x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x512x64x64_S32x512x4096 : S32x512x64x64.ShapeCasts S32x512x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  reducesTo_S32x128_S128_d0 : S32x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  shapeCasts_S32x512_S32x512x1 : S32x512.ShapeCasts S32x512x1
  inb_S8x32x4096_S8x32x4096_0_0_0 : ∀ a, (![0, 0, 0] : Fin 3 → Nat) a + S8x32x4096.size a ≤ S8x32x4096.size a
  h_S8x32x4096 : 0 < S8x32x4096.numel
  shapeCasts_S8x32x4096_S8x32x4096 : S8x32x4096.ShapeCasts S8x32x4096
  inb_S8x32x1_S8x32x1_0_0_0 : ∀ a, (![0, 0, 0] : Fin 3 → Nat) a + S8x32x1.size a ≤ S8x32x1.size a
  h_S8x32x1 : 0 < S8x32x1.numel
  shapeCasts_S8x32x1_S8x32x1 : S8x32x1.ShapeCasts S8x32x1
  broadcasts_S8x32x1_S8x32x4096 : S8x32x1.Broadcasts S8x32x4096
  shapeCasts_S32x512x4096_S32x512x64x64 : S32x512x4096.ShapeCasts S32x512x64x64
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x512x4096.size a
  hwx0_0 : ∀ i : grid0.Coords, EltTy.bits .f32 = 32 ∨ (Rect.block (s := S32x512x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x4096.size a ≤ S32x512x4096.size a
  hwx1_0 : ∀ i : grid1.Coords, EltTy.bits .f32 = 32 ∨ (Rect.block (s := S32x512x4096) S8x32x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32x1.size a ≤ S32x512x1.size a
  hwx1_1 : ∀ i : grid1.Coords, EltTy.bits .f32 = 32 ∨ (Rect.block (s := S32x512x1) S8x32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x32x4096.size a ≤ S32x512x4096.size a
  hwx1_2 : ∀ i : grid1.Coords, EltTy.bits .f32 = 32 ∨ (Rect.block (s := S32x512x4096) S8x32x4096.size (cc1_transform_2 i) (hinb1_2 i)).WholeWords (EltTy.packing .f32)

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8x32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8x32x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩
abbrev S32x512 : Shape := ⟨2, ![32, 512]⟩
abbrev S32x128 : Shape := ⟨2, ![32, 128]⟩
abbrev S1x128 : Shape := ⟨2, ![1, 128]⟩
abbrev S1x512 : Shape := ⟨2, ![1, 512]⟩
abbrev S32x512x1x1 : Shape := ⟨4, ![32, 512, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S_, .f32⟩
  | .hbm, ⟨8, _⟩ => ⟨S32x512, .f32⟩
  | .hbm, ⟨9, _⟩ => ⟨S_, .f32⟩
  | .hbm, ⟨10, _⟩ => ⟨S32x512, .f32⟩
  | .hbm, ⟨11, _⟩ => ⟨S32x512, .f32⟩
  | .hbm, ⟨12, _⟩ => ⟨S32x128, .f32⟩
  | .hbm, ⟨13, _⟩ => ⟨S1x128, .f32⟩
  | .hbm, ⟨14, _⟩ => ⟨S32x128, .f32⟩
  | .hbm, ⟨15, _⟩ => ⟨S32x128, .f32⟩
  | .hbm, ⟨16, _⟩ => ⟨S_, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S32x128, .f32⟩
  | .hbm, ⟨49, _⟩ => ⟨S32x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S1x128, .f32⟩
  | .hbm, ⟨58, _⟩ => ⟨S32x128, .f32⟩
  | .hbm, ⟨59, _⟩ => ⟨S32x128, .f32⟩
  | .hbm, ⟨60, _⟩ => ⟨S1x128, .f32⟩
  | .hbm, ⟨61, _⟩ => ⟨S32x128, .f32⟩
  | .hbm, ⟨62, _⟩ => ⟨S32x128, .f32⟩
  | .hbm, ⟨63, _⟩ => ⟨S32x512, .f32⟩
  | .hbm, ⟨64, _⟩ => ⟨S1x512, .f32⟩
  | .hbm, ⟨65, _⟩ => ⟨S32x512, .f32⟩
  | .hbm, ⟨66, _⟩ => ⟨S32x512, .f32⟩
  | .hbm, ⟨67, _⟩ => ⟨S32x512, .f32⟩
  | .hbm, ⟨68, _⟩ => ⟨S32x512, .f32⟩
  | .hbm, ⟨69, _⟩ => ⟨S_, .f32⟩
  | .hbm, ⟨70, _⟩ => ⟨S32x512, .f32⟩
  | .hbm, ⟨71, _⟩ => ⟨S32x512, .f32⟩
  | .hbm, ⟨72, _⟩ => ⟨S_, .f32⟩
  | .hbm, ⟨73, _⟩ => ⟨S32x512, .f32⟩
  | .hbm, ⟨74, _⟩ => ⟨S32x512, .f32⟩
  | .hbm, ⟨75, _⟩ => ⟨S32x512x1x1, .f32⟩
  | .hbm, ⟨76, _⟩ => ⟨S32x512x64x64, .f32⟩
  | .hbm, ⟨77, _⟩ => ⟨S32x512x64x64, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_cst_3 : Ref sig .tc := ⟨.hbm, 41, rfl⟩
abbrev main_call1_v12 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  reducesTo_S32x128_S128_d0 : S32x128.ReducesTo [0] S128
  bcast_S_S128 : S_.BroadcastsInDim S128 (![] : Fin 0 → Fin S128.rank)
  bcast_S_S1x128 : S_.BroadcastsInDim S1x128 (![] : Fin 0 → Fin S1x128.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1x1_0_1 : S32x512.BroadcastsInDim S32x512x1x1 (![0, 1] : Fin 2 → Fin S32x512x1x1.rank)
  bcast_S32x512x1x1_S32x512x64x64_0_1_2_3 : S32x512x1x1.BroadcastsInDim S32x512x64x64 (![0, 1, 2, 3] : Fin 4 → Fin S32x512x64x64.rank)
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

class Facts : Prop extends Facts₀ where

variable [Facts]
-- ==== Proof.RefSpec.lean ====
/-
  The reference as pure functions of its argument arrays, generic in the float instance.

  `pooled x`  : the mean over the two spatial axes, (0 + Σ_{h,w} x[b,c,h,w]) / 4096, one entry per (batch, channel).
  `gate s …`  : the channel gate computed from such a [32, 512] array `s`:
                 h = relu(s · w1ᵀ + b1); batch statistics μ = mean_b h, σ² = mean_b (h − μ)²;
                 ĥ = (h − μ) · rsqrt(σ² + ε) · γ + β; gate = 1 / (1 + exp(−(ĥ · w2ᵀ + b2))).
  `out x …`   : x[b,c,h,w] · gate(pooled x)[b,c].

  The gate is written operation by operation in the order the reference applies them, so that the same
  function can be recognised where another program applies the same chain to its own pooled array.
-/
import proofs.«156214_j78658031059208_1_alg».proof.Proof.Gen.ReferenceIdeal

noncomputable section

namespace Cert.ReferenceIdeal.Spec

open Cert.ReferenceIdeal Cert.ReferenceIdeal.Gen Idealize.ShloMosaic

variable {F : FTy → Type} [FloatOps F]

/-- The spatial mean: the sum over axes 2 and 3 from the zero initial value, divided by the splat of 4096. -/
def pooled (x : FVec F S32x512x64x64 .f32) : FVec F S32x512 .f32 :=
  Host.divf
    (Host.reduceAdd x (constant S_ .f32 0x00000000#32 : FVec F S_ .f32) reducesTo_S32x512x64x64_S32x512_d2_3 h_S_)
    (broadcastInDim S32x512 ![] bcast_S_S32x512 (constant S_ .f32 0x45800000#32 : FVec F S_ .f32))

/-- The biased variance over the batch axis of a [32, 128] array, as jnp.var lowers it: the mean of the squared
    deviations from the batch mean, divided by (32 − ddof) with ddof = 0, NaN where that count is not positive. -/
def batchVar (h : FVec F S32x128 .f32) : FVec F S128 .f32 :=
  let zero : FVec F S_ .f32 := constant S_ .f32 0x00000000#32
  let n : FVec F S_ .f32 := constant S_ .f32 0x42000000#32
  let c0 : FVec F S128 .f32 := Host.reduceAdd h zero reducesTo_S32x128_S128_d0 h_S_
  let c1 : FVec F S1x128 .f32 := broadcastInDim S1x128 ![1] bcast_S128_S1x128_1 c0
  let c2 : FVec F S1x128 .f32 := broadcastInDim S1x128 ![] bcast_S_S1x128 n
  let c3 : FVec F S1x128 .f32 := Host.divf c1 c2
  let c4 : FVec F S32x128 .f32 := broadcastInDim S32x128 ![0, 1] bcast_S1x128_S32x128_0_1 c3
  let c5 : FVec F S32x128 .f32 := subf h c4
  let c6 : FVec F S32x128 .f32 := mulf c5 c5
  let c7 : FVec F S_ .f32 := sitofp .f32 (constantI S_ 32 0#32)
  let c8 : FVec F S_ .f32 := subf n c7
  let c9 : FVec F S128 .f32 := Host.reduceAdd c6 zero reducesTo_S32x128_S128_d0 h_S_
  let c10 : FVec F S128 .f32 := broadcastInDim S128 ![] bcast_S_S128 c8
  let c11 : FVec F S128 .f32 := Host.divf c9 c10
  let c12 := cmpf .ogt c8 zero
  let nan : FVec F S_ .f32 := constant S_ .f32 0x7FC00000#32
  let w1 : FVec F S128 .f32 := broadcastInDim S128 ![] bcast_S_S128 (id nan)
  select (broadcastInDim S128 ![] bcast_S_S128 c12) c11 w1

/-- The channel gate from a pooled [32, 512] array and the six parameter arrays. -/
def gate (s : FVec F S32x512 .f32) (w1 : FVec F S128x512 .f32) (b1 ga be : FVec F S128 .f32)
    (w2 : FVec F S512x128 .f32) (b2 : FVec F S512 .f32) : FVec F S32x512 .f32 :=
  let zero : FVec F S_ .f32 := constant S_ .f32 0x00000000#32
  let n : FVec F S_ .f32 := constant S_ .f32 0x42000000#32
  let one : FVec F S_ .f32 := constant S_ .f32 0x3F800000#32
  let eps : FVec F S_ .f32 := constant S_ .f32 0x3727C5AC#32
  -- first projection, bias, relu
  let v3 : FVec F S32x128 .f32 := Host.dotGeneral dot_S32x512_S128x512_S32x128_1_1_0_0_n_n none s w1
  let v5 : FVec F S32x128 .f32 := broadcastInDim S32x128 ![0, 1] bcast_S1x128_S32x128_0_1 (broadcastInDim S1x128 ![1] bcast_S128_S1x128_1 b1)
  let v6 : FVec F S32x128 .f32 := addf v3 v5
  let v7 : FVec F S32x128 .f32 := maximumf v6 (broadcastInDim S32x128 ![] bcast_S_S32x128 zero)
  -- batch mean and variance
  let v10 : FVec F S128 .f32 := Host.divf (Host.reduceAdd v7 zero reducesTo_S32x128_S128_d0 h_S_) (broadcastInDim S128 ![] bcast_S_S128 n)
  let v11 : FVec F S128 .f32 := batchVar v7
  -- normalise, scale, shift
  let v14 : FVec F S32x128 .f32 := subf v7 (broadcastInDim S32x128 ![0, 1] bcast_S1x128_S32x128_0_1 (broadcastInDim S1x128 ![1] bcast_S128_S1x128_1 v10))
  let v17 : FVec F S128 .f32 := Host.rsqrt (addf v11 (broadcastInDim S128 ![] bcast_S_S128 eps))
  let v20 : FVec F S32x128 .f32 := mulf v14 (broadcastInDim S32x128 ![0, 1] bcast_S1x128_S32x128_0_1 (broadcastInDim S1x128 ![1] bcast_S128_S1x128_1 v17))
  let v23 : FVec F S32x128 .f32 := mulf v20 (broadcastInDim S32x128 ![0, 1] bcast_S1x128_S32x128_0_1 (broadcastInDim S1x128 ![1] bcast_S128_S1x128_1 ga))
  let v26 : FVec F S32x128 .f32 := addf v23 (broadcastInDim S32x128 ![0, 1] bcast_S1x128_S32x128_0_1 (broadcastInDim S1x128 ![1] bcast_S128_S1x128_1 be))
  -- second projection, bias, logistic
  let v27 : FVec F S32x512 .f32 := Host.dotGeneral dot_S32x128_S512x128_S32x512_1_1_0_0_n_n none v26 w2
  let v30 : FVec F S32x512 .f32 := addf v27 (broadcastInDim S32x512 ![0, 1] bcast_S1x512_S32x512_0_1 (broadcastInDim S1x512 ![1] bcast_S512_S1x512_1 b2))
  let v32 : FVec F S32x512 .f32 := Host.exp (Host.negf v30)
  let v34 : FVec F S32x512 .f32 := addf (broadcastInDim S32x512 ![] bcast_S_S32x512 one) v32
  Host.divf (broadcastInDim S32x512 ![] bcast_S_S32x512 one) v34

/-- The reference's result: the input times its channel gate, the gate broadcast over the two spatial axes. -/
def out (x : FVec F S32x512x64x64 .f32) (w1 : FVec F S128x512 .f32) (b1 ga be : FVec F S128 .f32)
    (w2 : FVec F S512x128 .f32) (b2 : FVec F S512 .f32) : FVec F S32x512x64x64 .f32 :=
  mulf x (broadcastInDim S32x512x64x64 ![0, 1, 2, 3] bcast_S32x512x1x1_S32x512x64x64_0_1_2_3
    (broadcastInDim S32x512x1x1 ![0, 1] bcast_S32x512_S32x512x1x1_0_1 (gate (pooled x) w1 b1 ga be w2 b2)))

end Cert.ReferenceIdeal.Spec

end
-- ==== Proof.PoolValue.lean ====
/-
  Region 0 (the pooling kernel) as a value: after the region, the [32, 512] output array holds, at (b, c), the sum
  of row (b, c) of the flattened [32, 512, 4096] input times the constant word 0x39800000 (2⁻¹²).
  Each of the 4 × 4 grid points writes one [8, 128] block; the blocks tile the array.
-/
import proofs.«156214_j78658031059208_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen Idealize.ShloMosaic Idealize.ShloMosaic.TcCoe Idealize.SL.Sem Idealize.ShloMosaic.ValueIdx
open Idealize.ShloMosaic.Pipeline (Dat Cfg Window)

/-- Row sums of the flattened input times 2⁻¹² (the word as printed). -/
def poolG (x : S32x512x4096.Idx → EReal) : S32x512.Idx → EReal :=
  fun j => (∑ k : Fin 4096, x (ix3 (j 0) (j 1) k)) * Ideal.ofBits .f32 0x39800000#32

/-! ## Zero offsets, however spelt -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-! ## The index maps over the grid -/

/-- At every grid point the input's block index agrees with the output's on the two row axes and is 0 on the
    lane axis (one block spans all 4096 lanes); the output's block indices stay below 4. -/
theorem block_index : ∀ t : Fin cfg0.N,
    win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every pair of block indices below 4 is some grid point's. -/
theorem block_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

/-! ## The body's payload at an index -/

/-- The payload at row (p, q) of a block: the sum of that row's 4096 lanes times the constant. -/
theorem pay_apply (x0 : FVec Ideal S8x128x4096 .f32) (p : Fin 8) (q : Fin 128) :
    k0_pay1 (F := Ideal) x0 (ix2 p q) = (∑ k : Fin 4096, x0 (ix3 p q k)) * Ideal.ofBits .f32 0x39800000#32 := by
  unfold k0_pay1
  rw [mulf_apply, broadcast_apply, shapeCast_self]
  refine congrArg (· * Ideal.ofBits .f32 0x39800000#32) ?_
  refine (Ideal.multiReduction_add_single x0 0x00000000#32 reduces_S8x128x4096_S8x128 (.inl rfl) rfl (ix2 p q)).trans ?_
  refine Finset.sum_congr rfl fun k _ => congrArg x0 ?_
  funext a
  match a with
  | ⟨0, _⟩ => rfl
  | ⟨1, _⟩ => rfl
  | ⟨2, _⟩ => rfl

/-- A block of the input read through an embedding `e3` that, on the row axes, lands where the output block's
    embedding `e2` lands and, on the lane axis, is the identity: the payload of that block at `j` is `poolG` at
    `e2 j`. -/
theorem pay_block (x : S32x512x4096.Idx → EReal) (e3 : S8x128x4096.Idx → S32x512x4096.Idx) (e2 : S8x128.Idx → S32x512.Idx)
    (h0 : ∀ (p : Fin 8) (q : Fin 128) (k : Fin 4096), (e3 (ix3 p q k) 0).val = (e2 (ix2 p q) 0).val)
    (h1 : ∀ (p : Fin 8) (q : Fin 128) (k : Fin 4096), (e3 (ix3 p q k) 1).val = (e2 (ix2 p q) 1).val)
    (h2 : ∀ (p : Fin 8) (q : Fin 128) (k : Fin 4096), (e3 (ix3 p q k) 2).val = k.val)
    (j : S8x128.Idx) :
    k0_pay1 (F := Ideal) (fun y => x (e3 y)) j = poolG x (e2 j) := by
  obtain ⟨p, q, rfl⟩ : ∃ (p : Fin 8) (q : Fin 128), j = ix2 p q := ⟨j 0, j 1, eq_ix2 j⟩
  rw [pay_apply]
  unfold poolG
  refine congrArg (· * Ideal.ofBits .f32 0x39800000#32) ?_
  refine Finset.sum_congr rfl fun k _ => congrArg x ?_
  funext a
  apply Fin.ext
  match a with
  | ⟨0, _⟩ => exact h0 p q k
  | ⟨1, _⟩ => exact h1 p q k
  | ⟨2, _⟩ => exact h2 p q k

/-! ## What a grid point writes back -/

/-- What point `t` writes back is block `t` of `poolG` of the input array as the region finds it. -/
theorem flushed_eq (V : (c : Dev nD) → (b : Ref sig .tc) → Buf (Elt Ideal) ((c : Thread nD τ).loc b)) (c : Dev nD) (t : Fin cfg0.N) :
    (dat0 (F := Ideal) V c).flushed 1 t = ((cfg0.win 1).blk t).view.read (Elt Ideal) (poolG (V c main_v0)) := by
  show (cfg0.win 1).cut (grid0.coords t) ((dat0 V c).after 1 t) = _
  rw [after0_1]
  unfold out0_1
  rw [View.canon_unit_zero zero_offsets2]
  simp only [View.ld_unit_zero (S := S8x128x4096) zero_offsets3]
  obtain ⟨e0, e1, e2, -, -⟩ := block_index t
  funext j
  show k0_pay1 (F := Ideal) (fun y => V c main_v0 (((cfg0.win 0).blk t).view.emb y)) j
      = poolG (V c main_v0) (((cfg0.win 1).blk t).view.emb j)
  refine pay_block (V c main_v0) _ _ (fun p q k => ?_) (fun p q k => ?_) (fun p q k => ?_) j
  · show win0_0.index t (0 : Fin 3) * 8 + 1 * p.val = win0_1.index t (0 : Fin 2) * 8 + 1 * p.val
    omega
  · show win0_0.index t (1 : Fin 3) * 128 + 1 * q.val = win0_1.index t (1 : Fin 2) * 128 + 1 * q.val
    omega
  · show win0_0.index t (2 : Fin 3) * 4096 + 1 * k.val = k.val
    omega

/-! ## The blocks cover the array -/

/-- An index of the array is in point `t`'s block iff each coordinate is in the block's range on its axis. -/
theorem mem_blk (t : Fin cfg0.N) (i : S32x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- Row (b, c) of the array lies in the block of the point whose block indices are (b / 8, c / 128). -/
theorem cover (i : S32x512.Idx) : ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := block_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The pooled array after region 0, from ANY entry contents `V`: `poolG` of the input array as the region finds it. -/
theorem pool_final (V : (c : Dev nD) → (b : Ref sig .tc) → Buf (Elt Ideal) ((c : Thread nD τ).loc b)) (c : Dev nD) :
    (dat0 (F := Ideal) V c).arrAt 1 cfg0.N = poolG (V c main_v0) :=
  (dat0 (F := Ideal) V c).arrAt_eq_of_cover 1 (poolG (V c main_v0)) (fun t _ => flushed_eq V c t) cover

end Cert.KernelIdeal.PoolValue

end
-- ==== Proof.MulValue.lean ====
/-
  Region 1 (the broadcast multiply) as a value: after the region, the [32, 512, 4096] output array holds, at
  (b, c, k), the flattened input at (b, c, k) times the gate column at (b, c, 0).
  Each of the 4 × 16 grid points writes one [8, 32, 4096] block; the blocks tile the array.
-/
import proofs.«156214_j78658031059208_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.MulValue

open Cert.KernelIdeal Cert.KernelIdeal.Gen Idealize.ShloMosaic Idealize.ShloMosaic.TcCoe Idealize.SL.Sem Idealize.ShloMosaic.ValueIdx
open Idealize.ShloMosaic.Pipeline (Dat Cfg Window)

/-- The flattened input times the gate column, the column broadcast along the last axis. -/
def mulG (x : S32x512x4096.Idx → EReal) (g : S32x512x1.Idx → EReal) : S32x512x4096.Idx → EReal :=
  fun i => x i * g (ix3 (i 0) (i 1) (0 : Fin 1))

/-! ## Zero offsets, however spelt -/

theorem zero_offsets3 : (![0, 0, 0] : Fin 3 → Nat) = fun _ => 0 := funext fun a => by fin_cases a <;> rfl

/-! ## The index maps over the grid -/

/-- At every grid point both inputs' block indices agree with the output's on the two row axes; every window's
    block index on the last axis is 0 (one block spans the whole last axis); the output's row block indices stay
    below 4 and 16. -/
theorem block_index : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_1.index t (2 : Fin 3) = 0
    ∧ win1_2.index t (2 : Fin 3) = 0
    ∧ win1_2.index t (0 : Fin 3) ≤ 3 ∧ win1_2.index t (1 : Fin 3) ≤ 15 :=
  (by decide +kernel : ∀ t : Fin grid1.N, _)

/-- Every pair of row block indices below 4 and 16 is some grid point's. -/
theorem block_onto : ∀ (q0 : Fin 4) (q1 : Fin 16), ∃ t : Fin cfg1.N, win1_2.index t = ![q0.val, q1.val, 0] :=
  (by decide +kernel : ∀ (q0 : Fin 4) (q1 : Fin 16), ∃ t : Fin grid1.N, win1_2.index t = ![q0.val, q1.val, 0])

/-! ## The body's payload at an index -/

/-- The payload at (p, q, k) of a block: the input block there times the gate block's column entry at (p, q, 0). -/
theorem pay_apply (x0 : FVec Ideal S8x32x4096 .f32) (g : FVec Ideal S8x32x1 .f32) (p : Fin 8) (q : Fin 32) (k : Fin 4096) :
    k1_pay1 (F := Ideal) x0 g (ix3 p q k) = x0 (ix3 p q k) * g (ix3 p q (0 : Fin 1)) := by
  unfold k1_pay1
  rw [mulf_apply, shapeCast_self, shapeCast_self, shapeCast_self]
  refine congrArg (x0 (ix3 p q k) * ·) ?_
  refine broadcastTo_apply g broadcasts_S8x32x1_S8x32x4096 (ix3 p q k) (ix3 p q (0 : Fin 1)) fun a => ?_
  match a with
  | ⟨0, _⟩ => rfl
  | ⟨1, _⟩ => rfl
  | ⟨2, _⟩ => rfl

/-- Blocks of the two inputs read through embeddings `ex`, `eg` that land, on the row axes, where the output block's
    embedding `eo` lands (and `ex` also on the last axis, `eg` at 0 there): the payload of those blocks at `j` is
    `mulG` at `eo j`. -/
theorem pay_block (x : S32x512x4096.Idx → EReal) (g : S32x512x1.Idx → EReal)
    (ex : S8x32x4096.Idx → S32x512x4096.Idx) (eg : S8x32x1.Idx → S32x512x1.Idx) (eo : S8x32x4096.Idx → S32x512x4096.Idx)
    (hx0 : ∀ (p : Fin 8) (q : Fin 32) (k : Fin 4096), (ex (ix3 p q k) 0).val = (eo (ix3 p q k) 0).val)
    (hx1 : ∀ (p : Fin 8) (q : Fin 32) (k : Fin 4096), (ex (ix3 p q k) 1).val = (eo (ix3 p q k) 1).val)
    (hx2 : ∀ (p : Fin 8) (q : Fin 32) (k : Fin 4096), (ex (ix3 p q k) 2).val = (eo (ix3 p q k) 2).val)
    (hg0 : ∀ (p : Fin 8) (q : Fin 32) (k : Fin 4096), (eg (ix3 p q (0 : Fin 1)) 0).val = (eo (ix3 p q k) 0).val)
    (hg1 : ∀ (p : Fin 8) (q : Fin 32) (k : Fin 4096), (eg (ix3 p q (0 : Fin 1)) 1).val = (eo (ix3 p q k) 1).val)
    (hg2 : ∀ (p : Fin 8) (q : Fin 32), (eg (ix3 p q (0 : Fin 1)) 2).val = 0)
    (j : S8x32x4096.Idx) :
    k1_pay1 (F := Ideal) (fun y => x (ex y)) (fun y => g (eg y)) j = mulG x g (eo j) := by
  obtain ⟨p, q, k, rfl⟩ : ∃ (p : Fin 8) (q : Fin 32) (k : Fin 4096), j = ix3 p q k := ⟨j 0, j 1, j 2, eq_ix3 j⟩
  rw [pay_apply]
  unfold mulG
  have ex_eq : ex (ix3 p q k) = eo (ix3 p q k) := by
    funext a
    apply Fin.ext
    match a with
    | ⟨0, _⟩ => exact hx0 p q k
    | ⟨1, _⟩ => exact hx1 p q k
    | ⟨2, _⟩ => exact hx2 p q k
  have eg_eq : eg (ix3 p q (0 : Fin 1)) = ix3 (eo (ix3 p q k) 0) (eo (ix3 p q k) 1) (0 : Fin 1) := by
    funext a
    apply Fin.ext
    match a with
    | ⟨0, _⟩ => exact hg0 p q k
    | ⟨1, _⟩ => exact hg1 p q k
    | ⟨2, _⟩ => exact hg2 p q
  exact congrArg₂ (· * ·) (congrArg x ex_eq) (congrArg g eg_eq)

/-! ## What a grid point writes back -/

/-- What point `t` writes back is block `t` of `mulG` of the two input arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (mulG (V c main_v0) (V c main_v36)) := by
  show (cfg1.win 2).cut (grid1.coords t) ((dat1 V c).after 2 t) = _
  rw [after1_2]
  unfold out1_2
  rw [View.canon_unit_zero zero_offsets3]
  simp only [View.ld_unit_zero (S := S8x32x4096) zero_offsets3, View.ld_unit_zero (S := S8x32x1) zero_offsets3]
  obtain ⟨e0, e1, e2, e3, e4, e5, e6, -, -⟩ := block_index t
  funext j
  show k1_pay1 (F := Ideal) (fun y => V c main_v0 (((cfg1.win 0).blk t).view.emb y))
        (fun y => V c main_v36 (((cfg1.win 1).blk t).view.emb y)) j
      = mulG (V c main_v0) (V c main_v36) (((cfg1.win 2).blk t).view.emb j)
  refine pay_block (V c main_v0) (V c main_v36) _ _ _ (fun p q k => ?_) (fun p q k => ?_) (fun p q k => ?_)
    (fun p q k => ?_) (fun p q k => ?_) (fun p q => ?_) j
  · show win1_0.index t (0 : Fin 3) * 8 + 1 * p.val = win1_2.index t (0 : Fin 3) * 8 + 1 * p.val
    omega
  · show win1_0.index t (1 : Fin 3) * 32 + 1 * q.val = win1_2.index t (1 : Fin 3) * 32 + 1 * q.val
    omega
  · show win1_0.index t (2 : Fin 3) * 4096 + 1 * k.val = win1_2.index t (2 : Fin 3) * 4096 + 1 * k.val
    omega
  · show win1_1.index t (0 : Fin 3) * 8 + 1 * p.val = win1_2.index t (0 : Fin 3) * 8 + 1 * p.val
    omega
  · show win1_1.index t (1 : Fin 3) * 32 + 1 * q.val = win1_2.index t (1 : Fin 3) * 32 + 1 * q.val
    omega
  · show win1_1.index t (2 : Fin 3) * 1 + 1 * 0 = 0
    omega

/-! ## The blocks cover the array -/

/-- An index of the array is in point `t`'s block iff each coordinate is in the block's range on its axis. -/
theorem mem_blk (t : Fin cfg1.N) (i : S32x512x4096.Idx) :
    i ∈ ((cfg1.win 2).blk t).view.set ↔ ∀ a : Fin 3, win1_2.index t a * S8x32x4096.size a ≤ (i a).val ∧ (i a).val < win1_2.index t a * S8x32x4096.size a + S8x32x4096.size a := by
  show i ∈ ((View.whole main_v37).slice (win1_2.rect t)).set ↔ _
  rw [View.set_slice_whole, Rect.mem_set_unit]
  exact Iff.rfl

/-- Entry (b, c, k) of the array lies in the block of the point whose block indices are (b / 8, c / 32, 0). -/
theorem cover (i : S32x512x4096.Idx) : ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 4096 := (i 2).isLt
  obtain ⟨t, ht⟩ := block_onto ⟨(i 0).val / 8, by omega⟩ ⟨(i 1).val / 32, by omega⟩
  have q0 : win1_2.index t (0 : Fin 3) = (i 0).val / 8 := congrFun ht 0
  have q1 : win1_2.index t (1 : Fin 3) = (i 1).val / 32 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 32 ≤ (i 1).val ∧ (i 1).val < win1_2.index t (1 : Fin 3) * 32 + 32; omega
  | ⟨2, _⟩ => show win1_2.index t (2 : Fin 3) * 4096 ≤ (i 2).val ∧ (i 2).val < win1_2.index t (2 : Fin 3) * 4096 + 4096; omega

/-- The product array after region 1, from ANY entry contents `V`: `mulG` of the two input arrays as the region finds them. -/
theorem mul_final (V : (c : Dev nD) → (b : Ref sig .tc) → Buf (Elt Ideal) ((c : Thread nD τ).loc b)) (c : Dev nD) :
    (dat1 (F := Ideal) V c).arrAt 2 cfg1.N = mulG (V c main_v0) (V c main_v36) :=
  (dat1 (F := Ideal) V c).arrAt_eq_of_cover 2 (mulG (V c main_v0) (V c main_v36)) (fun t _ => flushed_eq V c t) cover

end Cert.KernelIdeal.MulValue

end
-- ==== Proof.KernelFold.lean ====
/-
  The idealized kernel program's result as a value of its arguments.

  The run leaves the result buffer at the last contents of a fold through @main: a reshape of the input to
  [32, 512, 4096]; the pooling region; the gate's chain of host operations (five stretches) applied to the pooled
  array; the multiply region; a reshape back to [32, 512, 64, 64]. Read backwards from the result:
    result      = reshape (region 1's output array)
    that array  = (flattened input) · (gate column)                      [region 1, as a value]
    gate column = reshape to [32, 512, 1] of gate(pooled array, parameters)  [the host chain, as ONE function]
    pooled      = row sums of the flattened input · 2⁻¹²                  [region 0, as a value]
  and no host operation or region between writes the flattened input or a parameter array.
-/
import proofs.«156214_j78658031059208_1_alg».proof.Proof.Gen.KernelIdeal.Frame
import proofs.«156214_j78658031059208_1_alg».proof.Proof.RefSpec
import proofs.«156214_j78658031059208_1_alg».proof.Proof.PoolValue
import proofs.«156214_j78658031059208_1_alg».proof.Proof.MulValue
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal (Spec.gate)

section Chain

variable {F : FTy → Type} [FloatOps F]

/-- The five host stretches between the two regions, from ANY contents `W`. -/
abbrev between (W : Valuation τ sig (Elt F)) : Valuation τ sig (Elt F) :=
  after hostOps1_4 (after hostOps1_3 (after hostOps1_2 (after hostOps1_1 (after hostOps1 W))))

attribute [local irreducible] Host.reduceAdd Host.divf Host.rsqrt Host.exp Host.negf broadcastInDim in
/-- The gate column, as the reference's own gate function of the pooled array and the six parameter arrays as `W` holds them. -/
theorem between_v36 (W : Valuation τ sig (Elt F)) :
    between W (Proc.devRef .tc main_v36)
      = shapeCast S32x512x1 (Cert.ReferenceIdeal.Spec.gate (W (Proc.devRef .tc main_v1)) (W (Proc.devRef .tc main_arg1)) (W (Proc.devRef .tc main_arg2)) (W (Proc.devRef .tc main_arg3)) (W (Proc.devRef .tc main_arg4)) (W (Proc.devRef .tc main_arg5)) (W (Proc.devRef .tc main_arg6)))
          shapeCasts_S32x512_S32x512x1 := by
  simp only [between, hostOps1, hostOps1_1, hostOps1_2, hostOps1_3, hostOps1_4]
  after_results_simp
  rfl

/-- No operation of the five stretches writes the flattened input. -/
theorem between_v0 (W : Valuation τ sig (Elt F)) :
    between W (Proc.devRef .tc main_v0) = W (Proc.devRef .tc main_v0) := by
  simp only [between, hostOps1, hostOps1_1, hostOps1_2, hostOps1_3, hostOps1_4]
  after_results_simp

end Chain

section Value

open Cert.KernelIdeal.PoolValue (poolG)
open Cert.KernelIdeal.MulValue (mulG)

variable (m : (ℓ : Loc nD τ sig) → Buf (Elt Ideal) ℓ) (ρ : Dev nD → PrngReg)

/-- The input flattened to [32, 512, 4096]: what both regions read. -/
abbrev xflat (c : Dev nD) : S32x512x4096.Idx → EReal :=
  shapeCast S32x512x4096 (m ((c : Thread nD τ).loc main_arg0)) shapeCasts_S32x512x64x64_S32x512x4096

/-- The gate column [32, 512, 1]: the gate of the pooled flattened input and the parameters as launched. -/
abbrev gcol (c : Dev nD) : S32x512x1.Idx → EReal :=
  shapeCast S32x512x1 (Cert.ReferenceIdeal.Spec.gate (F := Ideal) (poolG (xflat m c)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    shapeCasts_S32x512_S32x512x1

/-! ### Before region 0: one reshape -/

theorem W1_v0 (c : Dev nD) : W1 m ρ c (Proc.devRef .tc main_v0) = xflat m c := by
  simp only [W1, hostOps0]
  after_results
  rfl
theorem W1_arg1 (c : Dev nD) : W1 m ρ c (Proc.devRef .tc main_arg1) = (m ((c : Thread nD τ).loc main_arg1)) := by
  simp only [W1, hostOps0]
  after_results
theorem W1_arg2 (c : Dev nD) : W1 m ρ c (Proc.devRef .tc main_arg2) = (m ((c : Thread nD τ).loc main_arg2)) := by
  simp only [W1, hostOps0]
  after_results
theorem W1_arg3 (c : Dev nD) : W1 m ρ c (Proc.devRef .tc main_arg3) = (m ((c : Thread nD τ).loc main_arg3)) := by
  simp only [W1, hostOps0]
  after_results
theorem W1_arg4 (c : Dev nD) : W1 m ρ c (Proc.devRef .tc main_arg4) = (m ((c : Thread nD τ).loc main_arg4)) := by
  simp only [W1, hostOps0]
  after_results
theorem W1_arg5 (c : Dev nD) : W1 m ρ c (Proc.devRef .tc main_arg5) = (m ((c : Thread nD τ).loc main_arg5)) := by
  simp only [W1, hostOps0]
  after_results
theorem W1_arg6 (c : Dev nD) : W1 m ρ c (Proc.devRef .tc main_arg6) = (m ((c : Thread nD τ).loc main_arg6)) := by
  simp only [W1, hostOps0]
  after_results

/-! ### After region 0: the input window's array as entered, the output's at the pooled value, the rest untouched -/

theorem W2_v0 (c : Dev nD) : W2 m ρ c (Proc.devRef .tc main_v0) = xflat m c :=
  (W2_arr m ρ c 0).trans (((dat0 (V1 m ρ) c).arrAt_in 0 rfl cfg0.N).trans ((A_eq0 (V1 m ρ) c 0).trans (W1_v0 m ρ c)))

theorem W2_v1 (c : Dev nD) : W2 m ρ c (Proc.devRef .tc main_v1) = poolG (xflat m c) :=
  (W2_arr m ρ c 1).trans ((PoolValue.pool_final (V1 m ρ) c).trans (congrArg poolG (W1_v0 m ρ c)))
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)

/-! ### At region 1's entry: the flattened input still, and the gate column -/

theorem W7_v0 (c : Dev nD) : W7 m ρ c (Proc.devRef .tc main_v0) = xflat m c :=
  (between_v0 (W2 m ρ c)).trans (W2_v0 m ρ c)

theorem W7_v36 (c : Dev nD) : W7 m ρ c (Proc.devRef .tc main_v36) = gcol m c := by
  refine (between_v36 (W2 m ρ c)).trans ?_
  rw [W2_v1, W2_arg1, W2_arg2, W2_arg3, W2_arg4, W2_arg5, W2_arg6]

/-! ### After region 1, and the last reshape -/

theorem W8_v37 (c : Dev nD) : W8 m ρ c (Proc.devRef .tc main_v37) = mulG (xflat m c) (gcol m c) := by
  refine (W8_arr m ρ c 2).trans ((MulValue.mul_final (V7 m ρ) c).trans ?_)
  rw [show V7 m ρ c main_v0 = W7 m ρ c (Proc.devRef .tc main_v0) from rfl,
    show V7 m ρ c main_v36 = W7 m ρ c (Proc.devRef .tc main_v36) from rfl, W7_v0, W7_v36]

/-- THE KERNEL PROGRAM'S RESULT: the reshape to [32, 512, 64, 64] of (flattened input) · (gate column). -/
theorem W9_v38 (c : Dev nD) :
    W9 m ρ c (Proc.devRef .tc main_v38)
      = shapeCast S32x512x64x64 (mulG (xflat m c) (gcol m c)) shapeCasts_S32x512x4096_S32x512x64x64 := by
  simp only [W9, hostOps2]
  after_results
  rw [W8_v37]
  rfl

end Value

end Cert.KernelIdeal.Fold

end
-- ==== Proof.Bridge.lean ====
/-
  The two places where the kernel program and the reference arrange the same arithmetic differently,
  both over the extended reals and for EVERY input (no finiteness is used).

  (1) The pooled array. The kernel program flattens the two spatial axes to one axis of 4096 = 64 · 64 entries,
      sums each row and multiplies by the constant 2⁻¹²; the reference sums over both spatial axes from the
      initial value 0 and divides by 4096. Position k of the flat axis is position (k / 64, k % 64) of the
      spatial pair, a bijection, so the two sums have the same terms; and on the extended reals dividing by
      the real 4096 IS multiplying by the real 1/4096, which is what the word 0x39800000 denotes exactly.
  (2) The product. The kernel program multiplies the flattened input by the gate column broadcast along the
      flat axis and reshapes back; the reference broadcasts the gate over the two spatial axes and multiplies.
      At (b, c, h, w) both are input[b,c,h,w] · gate[b,c].
-/
import proofs.«156214_j78658031059208_1_alg».proof.Proof.RefSpec
import proofs.«156214_j78658031059208_1_alg».proof.Proof.PoolValue
import proofs.«156214_j78658031059208_1_alg».proof.Proof.MulValue
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open Cert.KernelIdeal
open Cert.KernelIdeal.PoolValue (poolG)
open Cert.KernelIdeal.MulValue (mulG)

/-! ## The two constants -/

/-- The kernel's scale word is exactly 2⁻¹² = 1/4096. -/
theorem ofBits_inv_4096 : Ideal.ofBits .f32 0x39800000#32 = ((1 / 4096 : ℝ) : EReal) := by
  simp [Ideal.ofBits, Ideal.ieee, -EReal.coe_mul]; norm_num

/-- The reference's divisor word is exactly 4096. -/
theorem ofBits_4096 : Ideal.ofBits .f32 0x45800000#32 = ((4096 : ℝ) : EReal) := by
  simp [Ideal.ofBits, Ideal.ieee, -EReal.coe_mul]; norm_num

/-! ## The flattening read at an index -/

/-- Entry (a, b, k) of the flattened input is entry (a, b, k / 64, k % 64) of the input. -/
theorem flat_apply (x : S32x512x64x64.Idx → EReal) (a : Fin 32) (b : Fin 512) (k : Fin 4096) :
    shapeCast S32x512x4096 x Cert.KernelIdeal.Gen.shapeCasts_S32x512x64x64_S32x512x4096 (ix3 a b k)
      = x (ix4 a b ⟨k.val / 64, by omega⟩ ⟨k.val % 64, by omega⟩) := by
  refine shapeCast_apply x _ _ _ ?_
  rw [Shape.rowMajor_val_four, Shape.rowMajor_val_three]
  show ((a.val * 512 + b.val) * 64 + k.val / 64) * 64 + k.val % 64 = (a.val * 512 + b.val) * 4096 + k.val
  omega

/-! ## (1) The pooled array -/

/-- A row of the flattened input and the (h, w) plane it came from have the same entries: k ↦ (k / 64, k % 64). -/
theorem sum_row_eq_sum_plane (x : S32x512x64x64.Idx → EReal) (hr : S32x512x64x64.ReducesTo [2, 3] S32x512) (j : S32x512.Idx) :
    ∑ k : Fin 4096, x (ix4 (j 0) (j 1) ⟨k.val / 64, by omega⟩ ⟨k.val % 64, by omega⟩)
      = ∑ i ∈ Finset.univ.filter (fun i => hr.drop i = j), x i := by
  have drop0 : ∀ i : S32x512x64x64.Idx, (hr.drop i 0 : Nat) = i 0 := fun i => hr.drop_apply_val_of_eq i 0 0
  have drop1 : ∀ i : S32x512x64x64.Idx, (hr.drop i 1 : Nat) = i 1 := fun i => hr.drop_apply_val_of_eq i 1 1
  refine Finset.sum_nbij'
    (fun k : Fin 4096 => (ix4 (j 0) (j 1) ⟨k.val / 64, by omega⟩ ⟨k.val % 64, by omega⟩ : S32x512x64x64.Idx))
    (fun i : S32x512x64x64.Idx => (⟨(i 2).val * 64 + (i 3).val, by
      have h2 : (i 2).val < 64 := (i 2).isLt
      have h3 : (i 3).val < 64 := (i 3).isLt
      omega⟩ : Fin 4096)) ?_ ?_ ?_ ?_ ?_
  · intro k _
    refine Finset.mem_filter.mpr ⟨Finset.mem_univ _, funext fun d => Fin.ext ?_⟩
    match d with
    | ⟨0, _⟩ => exact drop0 _
    | ⟨1, _⟩ => exact drop1 _
  · intro i _; exact Finset.mem_univ _
  · intro k _
    apply Fin.ext
    show k.val / 64 * 64 + k.val % 64 = k.val
    omega
  · intro i hi
    have hj : hr.drop i = j := (Finset.mem_filter.mp hi).2
    have e0 : (j 0).val = (i 0).val := by rw [← hj]; exact drop0 i
    have e1 : (j 1).val = (i 1).val := by rw [← hj]; exact drop1 i
    have h2 : (i 2).val < 64 := (i 2).isLt
    have h3 : (i 3).val < 64 := (i 3).isLt
    funext d; apply Fin.ext
    match d with
    | ⟨0, _⟩ => exact e0
    | ⟨1, _⟩ => exact e1
    | ⟨2, _⟩ => show ((i 2).val * 64 + (i 3).val) / 64 = (i 2).val; omega
    | ⟨3, _⟩ => show ((i 2).val * 64 + (i 3).val) % 64 = (i 3).val; omega
  · intro k _; rfl

/-- The kernel program's pooled array of the flattened input is the reference's spatial mean of the input. -/
theorem pool_eq (x : S32x512x64x64.Idx → EReal) :
    poolG (shapeCast S32x512x4096 x Cert.KernelIdeal.Gen.shapeCasts_S32x512x64x64_S32x512x4096)
      = Cert.ReferenceIdeal.Spec.pooled (F := Ideal) x := by
  funext j
  have hsum : (∑ k : Fin 4096, shapeCast S32x512x4096 x Cert.KernelIdeal.Gen.shapeCasts_S32x512x64x64_S32x512x4096 (ix3 (j 0 : Fin 32) (j 1 : Fin 512) k))
      = ∑ i ∈ Finset.univ.filter (fun i => Cert.ReferenceIdeal.Gen.reducesTo_S32x512x64x64_S32x512_d2_3.drop i = j), x i :=
    (Finset.sum_congr rfl fun k _ => flat_apply x (j 0) (j 1) k).trans
      (sum_row_eq_sum_plane x Cert.ReferenceIdeal.Gen.reducesTo_S32x512x64x64_S32x512_d2_3 j)
  show (∑ k : Fin 4096, shapeCast S32x512x4096 x Cert.KernelIdeal.Gen.shapeCasts_S32x512x64x64_S32x512x4096 (ix3 (j 0 : Fin 32) (j 1 : Fin 512) k))
      * Ideal.ofBits .f32 0x39800000#32 = _
  rw [hsum, ofBits_inv_4096]
  unfold Cert.ReferenceIdeal.Spec.pooled
  show _ = Ideal.div (Ideal.ofBits .f32 0x00000000#32 + _) (Ideal.ofBits .f32 0x45800000#32)
  rw [Ideal.ofBits_zero_f32, zero_add, ofBits_4096, Ideal.div_coe (by norm_num : (4096 : ℝ) ≠ 0)]

/-! ## (2) The product -/

/-- Flatten, multiply by the broadcast gate column, reshape back: the input times the gate broadcast over the two
    spatial axes. -/
theorem mul_eq (x : S32x512x64x64.Idx → EReal) (g : S32x512.Idx → EReal) :
    shapeCast S32x512x64x64
        (mulG (shapeCast S32x512x4096 x Cert.KernelIdeal.Gen.shapeCasts_S32x512x64x64_S32x512x4096)
          (shapeCast S32x512x1 g Cert.KernelIdeal.Gen.shapeCasts_S32x512_S32x512x1))
        Cert.KernelIdeal.Gen.shapeCasts_S32x512x4096_S32x512x64x64
      = mulf (F := Ideal) (φ := .f32) x
          (broadcastInDim Cert.ReferenceIdeal.S32x512x64x64 ![0, 1, 2, 3] Cert.ReferenceIdeal.Gen.bcast_S32x512x1x1_S32x512x64x64_0_1_2_3
            (broadcastInDim Cert.ReferenceIdeal.S32x512x1x1 ![0, 1] Cert.ReferenceIdeal.Gen.bcast_S32x512_S32x512x1x1_0_1 g)) := by
  funext i
  obtain ⟨a, b, h, w, rfl⟩ : ∃ (a : Fin 32) (b : Fin 512) (h : Fin 64) (w : Fin 64), i = ix4 a b h w :=
    ⟨i 0, i 1, i 2, i 3, eq_ix4 i⟩
  have hk : h.val * 64 + w.val < 4096 := by omega
  rw [shapeCast_apply _ _ (ix4 a b h w) (ix3 a b (⟨h.val * 64 + w.val, hk⟩ : Fin 4096)) (by
    rw [Shape.rowMajor_val_three, Shape.rowMajor_val_four]
    show (a.val * 512 + b.val) * 4096 + (h.val * 64 + w.val) = ((a.val * 512 + b.val) * 64 + h.val) * 64 + w.val
    omega)]
  unfold mulG
  show shapeCast S32x512x4096 x _ (ix3 a b ⟨h.val * 64 + w.val, hk⟩) * shapeCast S32x512x1 g _ (ix3 a b (0 : Fin 1)) = _
  rw [flat_apply, shapeCast_apply g _ (ix3 a b (0 : Fin 1)) (ix2 a b) (by
    rw [Shape.rowMajor_val_two, Shape.rowMajor_val_three]
    show a.val * 512 + b.val = (a.val * 512 + b.val) * 1 + 0
    omega)]
  have hx : (ix4 a b (⟨(h.val * 64 + w.val) / 64, by omega⟩ : Fin 64) (⟨(h.val * 64 + w.val) % 64, by omega⟩ : Fin 64) : S32x512x64x64.Idx) = ix4 a b h w := by
    have e1 : (h.val * 64 + w.val) / 64 = h.val := by omega
    have e2 : (h.val * 64 + w.val) % 64 = w.val := by omega
    funext d; apply Fin.ext
    match d with
    | ⟨0, _⟩ => rfl
    | ⟨1, _⟩ => rfl
    | ⟨2, _⟩ => exact e1
    | ⟨3, _⟩ => exact e2
  rw [hx]
  show _ = x (ix4 a b h w) * _
  congr 1
  rw [broadcastInDim_apply _ _ _ (ix4 a b h w) (ix4 a b (0 : Fin 1) (0 : Fin 1)) (by
      intro d
      match d with
      | ⟨0, _⟩ => rfl
      | ⟨1, _⟩ => rfl
      | ⟨2, _⟩ => rfl
      | ⟨3, _⟩ => rfl),
    broadcastInDim_apply _ _ _ (ix4 a b (0 : Fin 1) (0 : Fin 1)) (ix2 a b) (by
      intro d
      match d with
      | ⟨0, _⟩ => rfl
      | ⟨1, _⟩ => rfl)]

/-! ## Both together: the kernel program's value is the reference's -/

/-- Reshape back of (flattened input) · (gate column of the kernel's own pooled array) IS the reference's result. -/
theorem value_eq (x : S32x512x64x64.Idx → EReal) (w1 : S128x512.Idx → EReal) (b1 ga be : S128.Idx → EReal)
    (w2 : S512x128.Idx → EReal) (b2 : S512.Idx → EReal) :
    shapeCast S32x512x64x64
        (mulG (shapeCast S32x512x4096 x Cert.KernelIdeal.Gen.shapeCasts_S32x512x64x64_S32x512x4096)
          (shapeCast S32x512x1
            (Cert.ReferenceIdeal.Spec.gate (F := Ideal)
              (poolG (shapeCast S32x512x4096 x Cert.KernelIdeal.Gen.shapeCasts_S32x512x64x64_S32x512x4096)) w1 b1 ga be w2 b2)
            Cert.KernelIdeal.Gen.shapeCasts_S32x512_S32x512x1))
        Cert.KernelIdeal.Gen.shapeCasts_S32x512x4096_S32x512x64x64
      = Cert.ReferenceIdeal.Spec.out (F := Ideal) x w1 b1 ga be w2 b2 := by
  rw [mul_eq, pool_eq]
  rfl

end Cert.Bridge

end
-- ==== Proof.RefRun.lean ====
/-
  The reference program's @main as ONE list of host operations (the three outlined functions' operations
  listed at their call sites), and its run: every buffer ends at the fold of the operations over the launch contents.
-/
import proofs.«156214_j78658031059208_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- The contents of an f32 array of shape `s`: the type at which @main states each of its own operations' functions. -/
local notation "𝔽⟦" s "⟧" => (⟨s, .f32⟩ : BufTy).Contents (Elt F)

/-- @main's seventy-one operations, in order. Nine of its own compute the spatial mean, the first projection and its
    bias; @relu's three follow at its call (the zero, its broadcast, the maximum) over `main_call0`; six of @main's own
    give the batch mean and the integer zero that is the variance's `ddof`; @_var's nineteen follow at its call over
    `main_call1` (the batch sum and mean, the squared deviations, the count `32 − ddof` and its sign test, the sum of
    squares over the count, the NaN), then @_where's three over `main_call1_call0` (the NaN at its own type, its
    broadcast, the select); @main's last thirty-one normalise, scale and shift, apply the second projection and the
    logistic, and multiply the input by the gate broadcast over the two spatial axes. -/
abbrev ops : List (HloOp τ sig (Elt F)) :=
  [ nullary main_cst (constant S_ .f32 0x00000000#32),
    binary main_arg0 main_cst main_v0 ((fun x v => Host.reduceAdd x v reducesTo_S32x512x64x64_S32x512_d2_3 h_S_) : 𝔽⟦S32x512x64x64⟧ → 𝔽⟦S_⟧ → 𝔽⟦S32x512⟧),
    nullary main_cst_0 (constant S_ .f32 0x45800000#32),
    unary main_cst_0 main_v1 (broadcastInDim S32x512 ![] bcast_S_S32x512 : 𝔽⟦S_⟧ → 𝔽⟦S32x512⟧),
    binary main_v0 main_v1 main_v2 (Host.divf : 𝔽⟦S32x512⟧ → 𝔽⟦S32x512⟧ → 𝔽⟦S32x512⟧),
    binary main_v2 main_arg1 main_v3 ((fun l r => Host.dotGeneral dot_S32x512_S128x512_S32x128_1_1_0_0_n_n none l r) : 𝔽⟦S32x512⟧ → 𝔽⟦S128x512⟧ → 𝔽⟦S32x128⟧),
    unary main_arg2 main_v4 (broadcastInDim S1x128 ![1] bcast_S128_S1x128_1 : 𝔽⟦S128⟧ → 𝔽⟦S1x128⟧),
    unary main_v4 main_v5 (broadcastInDim S32x128 ![0, 1] bcast_S1x128_S32x128_0_1 : 𝔽⟦S1x128⟧ → 𝔽⟦S32x128⟧),
    binary main_v3 main_v5 main_v6 (addf : 𝔽⟦S32x128⟧ → 𝔽⟦S32x128⟧ → 𝔽⟦S32x128⟧),
    -- @relu(%6)
    TRef.nullary main_call0.cst (constant S_ .f32 0x00000000#32),
    TRef.unary main_call0.cst main_call0.v0 (broadcastInDim S32x128 ![] bcast_S_S32x128),
    TRef.binary (.of main_v6) main_call0.v0 main_call0.v1 maximumf,
    -- the batch mean, and the integer zero
    nullary main_cst_1 (constant S_ .f32 0x00000000#32),
    binary main_v7 main_cst_1 main_v8 ((fun x v => Host.reduceAdd x v reducesTo_S32x128_S128_d0 h_S_) : 𝔽⟦S32x128⟧ → 𝔽⟦S_⟧ → 𝔽⟦S128⟧),
    nullary main_cst_2 (constant S_ .f32 0x42000000#32),
    unary main_cst_2 main_v9 (broadcastInDim S128 ![] bcast_S_S128 : 𝔽⟦S_⟧ → 𝔽⟦S128⟧),
    binary main_v8 main_v9 main_v10 (Host.divf : 𝔽⟦S128⟧ → 𝔽⟦S128⟧ → 𝔽⟦S128⟧),
    nullary main_c (constantI S_ 32 0#32),
    -- @_var(%7, %c)
    TRef.nullary main_call1.cst (constant S_ .f32 0x00000000#32),
    TRef.binary (.of main_v7) main_call1.cst main_call1.v0 (fun x v => Host.reduceAdd x v reducesTo_S32x128_S128_d0 h_S_),
    TRef.unary main_call1.v0 main_call1.v1 (broadcastInDim S1x128 ![1] bcast_S128_S1x128_1),
    TRef.nullary main_call1.cst_0 (constant S_ .f32 0x42000000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S32x128 ![0, 1] bcast_S1x128_S32x128_0_1),
    TRef.binary (.of main_v7) main_call1.v4 main_call1.v5 subf,
    TRef.binary main_call1.v5 main_call1.v5 main_call1.v6 mulf,
    TRef.unary (.of main_c) main_call1.v7 (sitofp .f32),
    TRef.nullary main_call1.cst_1 (constant S_ .f32 0x42000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    -- @_where(%12, %11, %cst_4), within @_var
    TRef.unary main_call1.cst_4 main_call1_call0.v0 id,
    TRef.unary main_call1_call0.v0 main_call1_call0.v1 (broadcastInDim S128 ![] bcast_S_S128),
    TRef.ternary main_call1.v12 main_call1.v11 main_call1_call0.v1 main_call1_call0.v2 (fun p a b => select (broadcastInDim S128 ![] bcast_S_S128 p) a b),
    -- normalise, scale, shift
    unary main_v10 main_v12 (broadcastInDim S1x128 ![1] bcast_S128_S1x128_1 : 𝔽⟦S128⟧ → 𝔽⟦S1x128⟧),
    unary main_v12 main_v13 (broadcastInDim S32x128 ![0, 1] bcast_S1x128_S32x128_0_1 : 𝔽⟦S1x128⟧ → 𝔽⟦S32x128⟧),
    binary main_v7 main_v13 main_v14 (subf : 𝔽⟦S32x128⟧ → 𝔽⟦S32x128⟧ → 𝔽⟦S32x128⟧),
    nullary main_cst_3 (constant S_ .f32 0x3727C5AC#32),
    unary main_cst_3 main_v15 (broadcastInDim S128 ![] bcast_S_S128 : 𝔽⟦S_⟧ → 𝔽⟦S128⟧),
    binary main_v11 main_v15 main_v16 (addf : 𝔽⟦S128⟧ → 𝔽⟦S128⟧ → 𝔽⟦S128⟧),
    unary main_v16 main_v17 (Host.rsqrt : 𝔽⟦S128⟧ → 𝔽⟦S128⟧),
    unary main_v17 main_v18 (broadcastInDim S1x128 ![1] bcast_S128_S1x128_1 : 𝔽⟦S128⟧ → 𝔽⟦S1x128⟧),
    unary main_v18 main_v19 (broadcastInDim S32x128 ![0, 1] bcast_S1x128_S32x128_0_1 : 𝔽⟦S1x128⟧ → 𝔽⟦S32x128⟧),
    binary main_v14 main_v19 main_v20 (mulf : 𝔽⟦S32x128⟧ → 𝔽⟦S32x128⟧ → 𝔽⟦S32x128⟧),
    unary main_arg3 main_v21 (broadcastInDim S1x128 ![1] bcast_S128_S1x128_1 : 𝔽⟦S128⟧ → 𝔽⟦S1x128⟧),
    unary main_v21 main_v22 (broadcastInDim S32x128 ![0, 1] bcast_S1x128_S32x128_0_1 : 𝔽⟦S1x128⟧ → 𝔽⟦S32x128⟧),
    binary main_v20 main_v22 main_v23 (mulf : 𝔽⟦S32x128⟧ → 𝔽⟦S32x128⟧ → 𝔽⟦S32x128⟧),
    unary main_arg4 main_v24 (broadcastInDim S1x128 ![1] bcast_S128_S1x128_1 : 𝔽⟦S128⟧ → 𝔽⟦S1x128⟧),
    unary main_v24 main_v25 (broadcastInDim S32x128 ![0, 1] bcast_S1x128_S32x128_0_1 : 𝔽⟦S1x128⟧ → 𝔽⟦S32x128⟧),
    binary main_v23 main_v25 main_v26 (addf : 𝔽⟦S32x128⟧ → 𝔽⟦S32x128⟧ → 𝔽⟦S32x128⟧),
    -- second projection, bias, logistic
    binary main_v26 main_arg5 main_v27 ((fun l r => Host.dotGeneral dot_S32x128_S512x128_S32x512_1_1_0_0_n_n none l r) : 𝔽⟦S32x128⟧ → 𝔽⟦S512x128⟧ → 𝔽⟦S32x512⟧),
    unary main_arg6 main_v28 (broadcastInDim S1x512 ![1] bcast_S512_S1x512_1 : 𝔽⟦S512⟧ → 𝔽⟦S1x512⟧),
    unary main_v28 main_v29 (broadcastInDim S32x512 ![0, 1] bcast_S1x512_S32x512_0_1 : 𝔽⟦S1x512⟧ → 𝔽⟦S32x512⟧),
    binary main_v27 main_v29 main_v30 (addf : 𝔽⟦S32x512⟧ → 𝔽⟦S32x512⟧ → 𝔽⟦S32x512⟧),
    unary main_v30 main_v31 (Host.negf : 𝔽⟦S32x512⟧ → 𝔽⟦S32x512⟧),
    unary main_v31 main_v32 (Host.exp : 𝔽⟦S32x512⟧ → 𝔽⟦S32x512⟧),
    nullary main_cst_4 (constant S_ .f32 0x3F800000#32),
    unary main_cst_4 main_v33 (broadcastInDim S32x512 ![] bcast_S_S32x512 : 𝔽⟦S_⟧ → 𝔽⟦S32x512⟧),
    binary main_v33 main_v32 main_v34 (addf : 𝔽⟦S32x512⟧ → 𝔽⟦S32x512⟧ → 𝔽⟦S32x512⟧),
    nullary main_cst_5 (constant S_ .f32 0x3F800000#32),
    unary main_cst_5 main_v35 (broadcastInDim S32x512 ![] bcast_S_S32x512 : 𝔽⟦S_⟧ → 𝔽⟦S32x512⟧),
    binary main_v35 main_v34 main_v36 (Host.divf : 𝔽⟦S32x512⟧ → 𝔽⟦S32x512⟧ → 𝔽⟦S32x512⟧),
    -- the gate over the spatial axes, times the input
    unary main_v36 main_v37 (broadcastInDim S32x512x1x1 ![0, 1] bcast_S32x512_S32x512x1x1_0_1 : 𝔽⟦S32x512⟧ → 𝔽⟦S32x512x1x1⟧),
    unary main_v37 main_v38 (broadcastInDim S32x512x64x64 ![0, 1, 2, 3] bcast_S32x512x1x1_S32x512x64x64_0_1_2_3 : 𝔽⟦S32x512x1x1⟧ → 𝔽⟦S32x512x64x64⟧),
    binary main_arg0 main_v38 main_v39 (mulf : 𝔽⟦S32x512x64x64⟧ → 𝔽⟦S32x512x64x64⟧ → 𝔽⟦S32x512x64x64⟧) ]

-- seventy-one binds re-associated: the rewrite under the chain recurses once per statement, and each pass over the
-- chain is as long as the chain, hence the larger budget
set_option maxRecDepth 2048 in
set_option maxHeartbeats 1600000 in
/-- @main is that straight line: with the three functions' definitions unfolded at their calls, both sides are one
    chain of operation steps once sequencing is re-associated and each callee's final return is absorbed. -/
theorem main_eq (c : Dev nD) : main (F := F) c = seq ops := by
  simp only [main, fn_relu.body, fn_var.body, fn_where.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only: each builder's own fact, in the list's order. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    unary_bufs_sub .., unary_bufs_sub .., binary_bufs_sub ..,
    nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., binary_bufs_sub ..⟩

/-- For any float values, from any memory with zero counters: every weakly fair execution of @main on the TensorCore
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's run read as a value: its result buffer ends at `Spec.out` of the launch contents of the
  seven argument arrays, and the arguments end unchanged.
-/
import proofs.«156214_j78658031059208_1_alg».proof.Proof.RefSpec
import proofs.«156214_j78658031059208_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd in
set_option maxRecDepth 8192 in
set_option maxHeartbeats 1600000 in
/-- The fold read at the result buffer is `Spec.out` of the arguments, by computation. With the fold unrolled, each
    operation's result decides whether the buffer read is the one it writes, so reading the result buffer walks back
    through exactly the operations that feed it: the product reads the input and the gate's two broadcasts, those the
    logistic, and so on down to the arguments; the typed references' transports are the identity at these literal
    references. What is reached is `Spec.out` unfolded, operation for operation: `Spec.pooled` is the first five
    operations, `Spec.batchVar` the two outlined functions' twenty-two, `Spec.gate` the rest up to the logistic. The
    reductions are kept folded meanwhile: the equation never looks inside a sum, only at its operand. -/
theorem out_eq (V : Valuation τ sig (Elt F)) :
    after RefRun.ops V (main_v39 : DevRef τ sig)
      = Spec.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [after_cons, after_nil]
  rfl

/-- No operation writes argument 0: its buffer ends as it began. -/
theorem arg0_eq (V : Valuation τ sig (Elt F)) :
    after RefRun.ops V (main_arg0 : DevRef τ sig) = V (main_arg0 : DevRef τ sig) := by
  simp only [after_cons, after_nil]
  rfl

/-- No operation writes argument 1: its buffer ends as it began. -/
theorem arg1_eq (V : Valuation τ sig (Elt F)) :
    after RefRun.ops V (main_arg1 : DevRef τ sig) = V (main_arg1 : DevRef τ sig) := by
  simp only [after_cons, after_nil]
  rfl

/-- No operation writes argument 2: its buffer ends as it began. -/
theorem arg2_eq (V : Valuation τ sig (Elt F)) :
    after RefRun.ops V (main_arg2 : DevRef τ sig) = V (main_arg2 : DevRef τ sig) := by
  simp only [after_cons, after_nil]
  rfl

/-- No operation writes argument 3: its buffer ends as it began. -/
theorem arg3_eq (V : Valuation τ sig (Elt F)) :
    after RefRun.ops V (main_arg3 : DevRef τ sig) = V (main_arg3 : DevRef τ sig) := by
  simp only [after_cons, after_nil]
  rfl

/-- No operation writes argument 4: its buffer ends as it began. -/
theorem arg4_eq (V : Valuation τ sig (Elt F)) :
    after RefRun.ops V (main_arg4 : DevRef τ sig) = V (main_arg4 : DevRef τ sig) := by
  simp only [after_cons, after_nil]
  rfl

/-- No operation writes argument 5: its buffer ends as it began. -/
theorem arg5_eq (V : Valuation τ sig (Elt F)) :
    after RefRun.ops V (main_arg5 : DevRef τ sig) = V (main_arg5 : DevRef τ sig) := by
  simp only [after_cons, after_nil]
  rfl

/-- No operation writes argument 6: its buffer ends as it began. -/
theorem arg6_eq (V : Valuation τ sig (Elt F)) :
    after RefRun.ops V (main_arg6 : DevRef τ sig) = V (main_arg6 : DevRef τ sig) := by
  simp only [after_cons, after_nil]
  rfl

/-- Every weakly fair execution of the reference terminates with its result at `Spec.out` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c main_v39).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (RefRun.run_all m ρ)

end Cert.ReferenceIdeal.RefValue

end
-- ==== Proof.lean ====
/-
  The certificate: a squeeze-and-excite block as two kernels around a small dense gate, against its jnp reference.

  Kernel program: flatten the input [32, 512, 64, 64] to [32, 512, 4096]; region 0 sums each row and scales by 2⁻¹²
  (the pooled array); host operations compute the channel gate from the pooled array (two projections, relu, batch
  normalisation, logistic); region 1 multiplies the flattened input by the gate column; reshape back.
  Reference: spatial mean, the same gate chain, the input times the gate broadcast over the spatial axes.

  - The three frames: the two kernel programs' frames are generated; the reference's is its run with the result dropped.
  - `preserves`: the ideal pass rewrote nothing, so there is nothing to state.
  - `algebraic`: the kernel program's run ends with its result at the last contents of the fold through @main
    (the generated launch called with a post that names the result); that fold read back to the arguments
    (the two regions as values, the gate chain recognised as the reference's own gate function); and the two
    arrangements of the same arithmetic joined: a row sum times 2⁻¹² is the spatial sum divided by 4096 on every
    extended real, and the product through the flattening is the product through the broadcast. No finiteness is used.
-/
import proofs.«156214_j78658031059208_1_alg».proof.Defs
import proofs.«156214_j78658031059208_1_alg».proof.Proof.Gen.Kernel
import proofs.«156214_j78658031059208_1_alg».proof.Proof.Gen.Kernel.Frame
import proofs.«156214_j78658031059208_1_alg».proof.Proof.Gen.KernelIdeal
import proofs.«156214_j78658031059208_1_alg».proof.Proof.Gen.KernelIdeal.Frame
import proofs.«156214_j78658031059208_1_alg».proof.Proof.Gen.ReferenceIdeal
import proofs.«156214_j78658031059208_1_alg».proof.Proof.Gen.Pre_finite_inputs
import proofs.«156214_j78658031059208_1_alg».proof.Proof.KernelRun
import proofs.«156214_j78658031059208_1_alg».proof.Proof.KernelFold
import proofs.«156214_j78658031059208_1_alg».proof.Proof.Bridge
import proofs.«156214_j78658031059208_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the result at the reference's function `Spec.out` of the (agreeing) arguments. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.ValueRun.run_main (F := Ideal) m ρ)
    rw [Cert.KernelIdeal.Fold.W9_v38 m ρ c]
    exact Cert.Bridge.value_eq _ _ _ _ _ _ _
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
